-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S128x8192 : Shape := ⟨2, ![128, 8192]⟩
abbrev S8192x8192 : Shape := ⟨2, ![8192, 8192]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x8192, .f32⟩
  | .hbm, ⟨3, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x128_S128x8192_1_0 : S8192x128.Transposes [1, 0] S128x8192
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S1024x128_S1024 : S1024x128.Reduces [1] S1024
  shapeCasts_S1024_S1024x1 : S1024.ShapeCasts S1024x1
  reduces_S128x1024_S1024 : S128x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x8192.size a
  hwx0_1 : ∀ i : grid0.Coords, EltTy.bits .f32 = 32 ∨ (Rect.block (s := S128x8192) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.LibColumn.lean ====
/-
  A column of per-row values spread over a matrix, read at an entry.

  A length-`a` vector recast as an `[a, 1]` column keeps entry `i` at row `i`; an `[a, 1]` column broadcast to
  `[a, b]` repeats the entry of row `p` along that row. Together with the library's row forms (`[a] → [1, a]`,
  `[1, b] → [a, b]`) they read `u[:, None] + v[None, :]` at `(p, q)` as `u p + v q`.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to an `[a, 1]` column reads, at `(i, 0)`, the vector at `i`: both positions have
    row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the kernel body stores at entry `(p, q)` of its 1024 × 1024 output tile, over the extended reals.

  The body loads a tile `x` of 1024 points (rows, 128 coordinates each) and a tile `y` of 1024 points laid out
  transposed (128 coordinate rows, one column per point). It forms the row sums of `x ∘ x` (‖x_p‖², kept as a column),
  the column sums of `y ∘ y` (‖y_q‖², kept as a row), the matrix product `x · y` accumulated from zero (⟨x_p, y_q⟩; the
  narrowing of the operands to a shorter float format is the identity on extended reals), and stores
  `0 − √(max((‖x_p‖² + ‖y_q‖²) − 2·⟨x_p, y_q⟩, 0))`.
-/
import proofs.«162378_j21835613733206_1_alg».proof.Proof.Gen.KernelIdeal.Skeleton
import proofs.«162378_j21835613733206_1_alg».proof.Proof.LibColumn
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A square root of a vector at an index is the square root of the element. -/
theorem sqrt_apply {s : Shape} {φ : FTy} (a : FVec Ideal s φ) (i : s.Idx) : sqrt a i = Ideal.sqrt (a i) := rfl

/-- The sum along a row of the tile of squares: ‖x_p‖². -/
theorem rowSq (x : FVec Ideal S1024x128 .f32) (h : S1024x128.Reduces [1] S1024) (hφ : FKind.Formats FTy.f32)
    (hacc : (0x00000000#32 : BitVec 32) = 0x00000000#32) (p : Fin 1024) :
    multiReduction (F := Ideal) .add [1] S1024 (mulf x x) 0x00000000#32 h hφ hacc (ix1 p)
      = ∑ k : Fin 128, x (ix2 p k) * x (ix2 p k) := by
  refine (Ideal.multiReduction_add_single (mulf x x) 0x00000000#32 h hφ hacc (ix1 p)).trans ?_
  refine Finset.sum_congr rfl fun k _ => ?_
  have e : h.lift (ix1 p) k = ix2 p k :=
    funext fun a => Fin.ext (by match a with | ⟨0, _⟩ => rfl | ⟨1, _⟩ => rfl)
  rw [e]
  rfl

/-- The sum down a column of the transposed tile of squares: ‖y_q‖². -/
theorem colSq (y : FVec Ideal S128x1024 .f32) (h : S128x1024.Reduces [0] S1024) (hφ : FKind.Formats FTy.f32)
    (hacc : (0x00000000#32 : BitVec 32) = 0x00000000#32) (q : Fin 1024) :
    multiReduction (F := Ideal) .add [0] S1024 (mulf y y) 0x00000000#32 h hφ hacc (ix1 q)
      = ∑ k : Fin 128, y (ix2 k q) * y (ix2 k q) := by
  refine (Ideal.multiReduction_add_single (mulf y y) 0x00000000#32 h hφ hacc (ix1 q)).trans ?_
  refine Finset.sum_congr rfl fun k _ => ?_
  have e : h.lift (ix1 q) k = ix2 k q :=
    funext fun a => Fin.ext (by match a with | ⟨0, _⟩ => rfl | ⟨1, _⟩ => rfl)
  rw [e]
  rfl

/-! ### The product's operand indices, axis by axis -/

theorem lhs_axis0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_axis1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem rhs_axis0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem rhs_axis1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product accumulated from zero, at `(p, q)`: ⟨x_p, y_q⟩, the sum over the 128 coordinates. -/
theorem prodAt (l : FVec Ideal S1024x128 .bf16) (r : FVec Ideal S128x1024 .bf16) (p q : Fin 1024) :
    matmul (F := Ideal) dot_S1024x128_S128x1024_S1024x1024_1_0_0_1_n_n none l r (constant S1024x1024 .f32 0x00000000#32) (ix2 p q)
      = ∑ k : Fin 128, l (ix2 p k) * r (ix2 k q) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- THE STORED ENTRY: at `(p, q)` the body's one store holds zero minus the root of the clamped
    ‖x_p‖² + ‖y_q‖² − 2·⟨x_p, y_q⟩, each of the three a sum over the 128 coordinates. -/
theorem pay_apply (x : FVec Ideal S1024x128 .f32) (y : FVec Ideal S128x1024 .f32) (p q : Fin 1024) :
    k0_pay1 (F := Ideal) x y (ix2 p q)
      = (0 : EReal) - Ideal.sqrt (max (((∑ k : Fin 128, x (ix2 p k) * x (ix2 p k)) + ∑ k : Fin 128, y (ix2 k q) * y (ix2 k q))
          - Ideal.ofBits .f32 0x40000000#32 * ∑ k : Fin 128, x (ix2 p k) * y (ix2 k q)) 0) := by
  unfold k0_pay1
  simp only [subf_apply, sqrt_apply, maximumf_apply, addf_apply, mulf_apply, broadcast_apply]
  rw [shapeCast_self y, LibColumn.broadcastTo_a1_ab_apply, broadcastTo_1b_ab_apply, LibColumn.shapeCast_a_a1_apply,
    shapeCast_a_1a_apply, rowSq, colSq, prodAt]
  simp only [truncf_apply, Ideal.ofBits_def, Ideal.ofBits_zero_f32]

end Cert.KernelIdeal.Body

end
-- ==== Proof.Spec.lean ====
/-
  The function both programs compute, over the extended reals: for two families of 8192 points in 128 dimensions,
  given as the rows of `a` and of `b`, the NEGATED Euclidean distance between point `r` of `a` and point `s` of `b`,
  through the expansion ‖x − y‖² = ‖x‖² + ‖y‖² − 2⟨x, y⟩ clamped below at zero:

      negDist a b (r, s) = −√(max((‖a_r‖² + ‖b_s‖²) − 2·⟨a_r, b_s⟩, 0)).

  The three sums run over the 128 coordinates. Addition and multiplication of extended reals are commutative and
  associative, so a sum over a finite index set does not depend on the order or grouping of its terms, and no
  finiteness of the entries is needed to identify two such sums term by term.
-/
import Idealize.ShloMosaic.PureOps.Ideal
import Idealize.ShloMosaic.PureOps.Ideal.Laws
import Idealize.ShloMosaic.Lib.ValueIdx

noncomputable section

namespace Cert.NegDist

open Idealize.ShloMosaic Idealize.ShloMosaic.ValueIdx

/-- The points: 8192 rows of 128 coordinates. -/
abbrev Pts : Type := (⟨2, ![8192, 128]⟩ : Shape).Idx → EReal

/-- ‖x_r‖²: the sum of the squares of row `r`. -/
def sqNorm (x : Pts) (r : Fin 8192) : EReal := ∑ k : Fin 128, x (ix2 r k) * x (ix2 r k)

/-- ⟨a_r, b_s⟩: the inner product of row `r` of `a` with row `s` of `b`. -/
def rowDot (a b : Pts) (r s : Fin 8192) : EReal := ∑ k : Fin 128, a (ix2 r k) * b (ix2 s k)

/-- The factor 2, as the binary32 word both programs carry (never evaluated: the same word on both sides). -/
abbrev two : EReal := Ideal.ofBits .f32 0x40000000#32

/-- The clamped squared distance between row `r` of `a` and row `s` of `b`. -/
def sqDist (a b : Pts) (r s : Fin 8192) : EReal :=
  max ((sqNorm a r + sqNorm b s) - two * rowDot a b r s) 0

/-- The negated distance, entry `(r, s)` of the 8192 × 8192 result. -/
def negDist (a b : Pts) : (⟨2, ![8192, 8192]⟩ : Shape).Idx → EReal :=
  fun i => -Ideal.sqrt (sqDist a b (i 0) (i 1))

theorem negDist_ix2 (a b : Pts) (r s : Fin 8192) :
    negDist a b (ix2 r s) = -Ideal.sqrt (sqDist a b r s) := rfl

/-- Subtracting from zero is negation on the extended reals. -/
theorem zero_sub_eq (x : EReal) : (0 : EReal) - x = -x := by
  rw [sub_eq_add_neg, zero_add]

end Cert.NegDist

end
-- ==== Proof.TileEntry.lean ====
/-
  One stored entry of a tile is one entry of the negated distance matrix.

  If row `p` of the loaded point tile `x` is row `r` of `A`, and column `q` of the loaded transposed tile `y` is row `s` of
  `B` (coordinate by coordinate), then the three sums over the 128 coordinates in the stored entry `(p, q)` are ‖A_r‖²,
  ‖B_s‖² and ⟨A_r, B_s⟩, and zero minus the root is the negated root: the entry is `negDist A B (r, s)`.
-/
import proofs.«162378_j21835613733206_1_alg».proof.Proof.Payload
import proofs.«162378_j21835613733206_1_alg».proof.Proof.Spec

noncomputable section

namespace Cert.KernelIdeal.Body

open Cert.KernelIdeal Cert.KernelIdeal.Gen Idealize.ShloMosaic Idealize.ShloMosaic.ValueIdx Cert.NegDist

theorem tile_entry (A B : Pts) (x : FVec Ideal S1024x128 .f32) (y : FVec Ideal S128x1024 .f32)
    (p q : Fin 1024) (r s : Fin 8192)
    (hx : ∀ k : Fin 128, x (ix2 p k) = A (ix2 r k)) (hy : ∀ k : Fin 128, y (ix2 k q) = B (ix2 s k)) :
    k0_pay1 (F := Ideal) x y (ix2 p q) = negDist A B (ix2 r s) := by
  rw [pay_apply, negDist_ix2, zero_sub_eq]
  unfold sqDist sqNorm rowDot
  simp only [hx, hy]

end Cert.KernelIdeal.Body

end
-- ==== Proof.KernelValue.lean ====
/-
  The kernel's result array is `negDist` of its two arguments.

  The grid is 8 × 8. At point `t = (I, J)` the pipeline stages rows `1024·I … 1024·I + 1023` of the first argument (all 128
  coordinates), columns `1024·J … 1024·J + 1023` of the TRANSPOSE of the second argument (which the host forms before the
  launch: entry `(k, j)` of the transpose is entry `(j, k)` of the argument), and writes back tile `(I, J)` of the
  8192 × 8192 result. So row `p` of the point tile is point `1024·I + p` of the first family, column `q` of the transposed tile
  is point `1024·J + q` of the second, and the stored entry `(p, q)` is entry `(1024·I + p, 1024·J + q)` of `negDist`. The 64 tiles
  cover the result, so after the run the whole array is `negDist` of the arguments.
-/
import proofs.«162378_j21835613733206_1_alg».proof.Proof.Gen.KernelIdeal.Value
import proofs.«162378_j21835613733206_1_alg».proof.Proof.TileEntry
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Dist

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.NegDist
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The first family of points: the first argument as launched. -/
abbrev ptsA (c : Dev nD) : Pts := m ((c : Thread nD τ).loc main_arg0)
/-- The second family of points: the second argument as launched. -/
abbrev ptsB (c : Dev nD) : Pts := m ((c : Thread nD τ).loc main_arg1)

/-- What the result array ends holding. -/
abbrev result (c : Dev nD) : Buf (Elt Ideal) ((c : Thread nD τ).loc main_v1) := negDist (ptsA m c) (ptsB m c)

/-- The block indices of the three windows over the grid: the point tile moves with the output's row tile and spans
    all coordinates; the transposed tile spans all coordinates and moves with the output's column tile; the output's
    tile indices stay below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every one of the 8 × 8 output tiles is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The array the second window stages is the transpose of the second argument: entry `(k, j)` is the argument's `(j, k)`. -/
theorem transposed_apply (c : Dev nD) (k : Fin 128) (j : Fin 8192) :
    (V m c main_v0 : S128x8192.Idx → Elt Ideal .f32) (ix2 k j) = ptsB m c (ix2 j k) := by
  have e : (V m c main_v0 : S128x8192.Idx → Elt Ideal .f32)
      = transpose S128x8192 [1, 0] (m ((c : Thread nD τ).loc main_arg1)) transposes_S8192x128_S128x8192_1_0 := by
    dsimp only [Gen.V, Gen.hostOps0]; after_results
  rw [e]
  exact transpose_ix2_apply _ _ k j

/-- Row `p` of the point tile at grid point `t` is row `r = 1024·I + p` of the first family. -/
theorem ptile_apply (c : Dev nD) (t : Fin cfg0.N) (p : Fin 1024) (k : Fin 128) (r : Fin 8192)
    (hr : r.val = win0_2.index t (0 : Fin 2) * 1024 + p.val) :
    (iblk m c 0 t : Vec Ideal S1024x128 .f32) (ix2 p k) = ptsA m c (ix2 r k) := by
  obtain ⟨e0, e1, e2, e3, e4, e5⟩ := idx_facts t
  unfold iblk
  rw [View.read_apply]
  show V m c main_arg0 _ = _
  rw [V_main_arg0]
  show (m ((c : Thread nD τ).loc main_arg0) : S8192x128.Idx → Elt Ideal .f32) _ = (m ((c : Thread nD τ).loc main_arg0) : S8192x128.Idx → Elt Ideal .f32) _
  congr 1
  funext a
  apply Fin.ext
  match a with
  | ⟨0, _⟩ => show win0_0.index t (0 : Fin 2) * 1024 + 1 * p.val = r.val; omega
  | ⟨1, _⟩ => show win0_0.index t (1 : Fin 2) * 128 + 1 * k.val = k.val; omega

/-- Column `q` of the transposed tile at grid point `t` is row `s = 1024·J + q` of the second family. -/
theorem ttile_apply (c : Dev nD) (t : Fin cfg0.N) (k : Fin 128) (q : Fin 1024) (s : Fin 8192)
    (hs : s.val = win0_2.index t (1 : Fin 2) * 1024 + q.val) :
    (iblk m c 1 t : Vec Ideal S128x1024 .f32) (ix2 k q) = ptsB m c (ix2 s k) := by
  obtain ⟨e0, e1, e2, e3, e4, e5⟩ := idx_facts t
  unfold iblk
  rw [View.read_apply]
  show (V m c main_v0 : S128x8192.Idx → Elt Ideal .f32) _ = _
  refine Eq.trans ?_ (transposed_apply m c k s)
  congr 1
  funext a
  apply Fin.ext
  match a with
  | ⟨0, _⟩ => show win0_1.index t (0 : Fin 2) * 128 + 1 * k.val = k.val; omega
  | ⟨1, _⟩ => show win0_1.index t (1 : Fin 2) * 1024 + 1 * q.val = s.val; omega

/-- The stored tile at grid point `t`, entry by entry, is the output tile `(I, J)` of `negDist`. -/
theorem tile_at (c : Dev nD) (t : Fin cfg0.N) (j : S1024x1024.Idx) :
    k0_pay1 (F := Ideal) (iblk m c 0 t) (iblk m c 1 t) j = result m c (((cfg0.win 2).blk t).view.emb j) := by
  obtain ⟨e0, e1, e2, e3, e4, e5⟩ := idx_facts t
  obtain ⟨p, q, rfl⟩ : ∃ (p q : Fin 1024), j = ix2 p q := ⟨j 0, j 1, eq_ix2 j⟩
  have hp : p.val < 1024 := p.isLt
  have hq : q.val < 1024 := q.isLt
  have hi : ((cfg0.win 2).blk t).view.emb (ix2 p q)
      = ix2 (⟨win0_2.index t (0 : Fin 2) * 1024 + p.val, by omega⟩ : Fin 8192) (⟨win0_2.index t (1 : Fin 2) * 1024 + q.val, by omega⟩ : Fin 8192) := by
    funext a
    apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = win0_2.index t (1 : Fin 2) * 1024 + q.val; omega
  rw [hi]
  exact Body.tile_entry (ptsA m c) (ptsB m c) (iblk m c 0 t) (iblk m c 1 t) p q _ _
    (fun k => ptile_apply m c t p k _ rfl) (fun k => ttile_apply m c t k q _ rfl)

/-- WHAT POINT `t` WRITES BACK is tile `t` of `negDist` of the arguments. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz]
  simp only [View.ld_unit_zero (S := S1024x128) hz, View.ld_unit_zero (S := S128x1024) hz]
  exact funext fun j => tile_at m c t j

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The 64 tiles cover the result: entry `(r, s)` lies in tile `(r / 1024, s / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run is `negDist` of the arguments. -/
theorem final (c : Dev nD) : (dats m 0 c).arrAt 2 cfg0.N = result m c :=
  (dats m 0 c).arrAt_eq_of_cover 2 (result m c) (fun t _ => flushed_eq m c t) tiles_cover

/-- The run, read: the result array at `negDist` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Dist

end
-- ==== Proof.RefValue.lean ====
/-
  The reference computes `negDist`.

  Read one operation at a time, entry `(r, s)` of the reference's result is the negation of the square root of
  `max((u r + v s) − 2·w r s, 0)`, where `u r = 0 + Σ_k a(r,k)·a(r,k)` and `v s = 0 + Σ_k b(s,k)·b(s,k)` are the row sums of
  the squared inputs spread along rows and columns, and `w r s = Σ_k a(r,k)·b(s,k)` is the contraction of the two inputs
  over their second axis. The leading zeros are the sums' initial values and vanish; what is left is `negDist a b (r, s)`
  term for term.
-/
import proofs.«162378_j21835613733206_1_alg».proof.Proof.Gen.ReferenceIdeal.Read
import proofs.«162378_j21835613733206_1_alg».proof.Proof.Spec

noncomputable section

namespace Cert.ReferenceIdeal.RefValue

open Cert.ReferenceIdeal Cert.ReferenceIdeal.Read Idealize.ShloMosaic Idealize.ShloMosaic.ValueIdx Cert.NegDist

/-- The row that feeds `u r`: following the two spreads back from entry `(r, s)` lands on row `r`. -/
theorem row_of_entry (r s : Fin 8192) (k : Fin 128) :
    idx_main_v1 (idx_main_v5 (idx_main_v7 (ix2 r s))) k = ix2 r k :=
  funext fun a => Fin.ext (by match a with | ⟨0, _⟩ => rfl | ⟨1, _⟩ => rfl)

/-- The row that feeds `v s`: following the two spreads back from entry `(r, s)` lands on row `s`. -/
theorem col_of_entry (r s : Fin 8192) (k : Fin 128) :
    idx_main_v3 (idx_main_v6 (idx_main_v8 (ix2 r s))) k = ix2 s k :=
  funext fun a => Fin.ext (by match a with | ⟨0, _⟩ => rfl | ⟨1, _⟩ => rfl)

/-- The contraction's left factor at `(r, s)`, coordinate `k`, is `a (r, k)` … -/
theorem left_of_entry (r s : Fin 8192) (k : Fin 128) : lidx_main_v4 (ix2 r s) k = ix2 r k :=
  funext fun a => Fin.ext (by match a with | ⟨0, _⟩ => rfl | ⟨1, _⟩ => rfl)

/-- … and its right factor is `b (s, k)`. -/
theorem right_of_entry (r s : Fin 8192) (k : Fin 128) : ridx_main_v4 (ix2 r s) k = ix2 s k :=
  funext fun a => Fin.ext (by match a with | ⟨0, _⟩ => rfl | ⟨1, _⟩ => rfl)

/-- THE REFERENCE'S RESULT is the negated distance matrix of its two inputs. -/
theorem ref_eq (a b : (⟨S8192x128, .f32⟩ : BufTy).Contents (Elt Ideal)) :
    val_main_v16 (F := Ideal) a b = negDist a b := by
  funext i
  obtain ⟨r, s, rfl⟩ : ∃ (r s : Fin 8192), i = ix2 r s := ⟨i 0, i 1, eq_ix2 i⟩
  rw [val_main_v16_apply, val_main_v15_apply, val_main_v14_apply, val_main_v12_apply, val_main_v13_apply,
    val_main_cst_2_apply, val_main_v9_apply, val_main_v11_apply, val_main_v10_apply, val_main_cst_1_apply,
    val_main_v4_apply, val_main_v7_apply, val_main_v5_apply, val_main_v1_apply, val_main_cst_apply,
    val_main_v8_apply, val_main_v6_apply, val_main_v3_apply, val_main_cst_0_apply]
  simp only [val_main_v0_apply, val_main_v2_apply, row_of_entry, col_of_entry, left_of_entry, right_of_entry,
    Ideal.hostNegf_def, Ideal.negf_def, Ideal.hostUnary_sqrt_def, Ideal.maximumf_def, Ideal.subf_def, Ideal.addf_def,
    Ideal.mulf_def, Ideal.ofBits_def, Ideal.ofBits_zero_f32, zero_add]
  rfl

end Cert.ReferenceIdeal.RefValue

end
-- ==== Proof.lean ====
/-
  The negated pairwise Euclidean distance of two families of 8192 points in 128 dimensions, as a tiled kernel and as
  a whole-array computation, agree over the extended reals.

  Both compute, for row `r` of the first argument and row `s` of the second,
      −√(max((‖a_r‖² + ‖b_s‖²) − 2·⟨a_r, b_s⟩, 0))
  (`Cert.NegDist.negDist`). The kernel does it tile by tile on an 8 × 8 grid of 1024 × 1024 output tiles, from 1024 rows of
  the first argument and 1024 columns of the transposed second argument per tile, taking the two squared norms as a row
  sum and a column sum and the inner products as a matrix product whose operands are first narrowed to a shorter float
  format (the identity on extended reals), and writing `0 − √…`. The reference takes the two squared norms as row sums with
  initial value zero, the inner products as one contraction of the two arguments over their second axes, and negates.
  The three sums are over the same 128 terms on both sides; a leading zero vanishes and `0 − x = −x`. No entry needs to
  be finite for this: only commutativity and associativity of the extended reals' sum and product are used, so the
  precondition is never opened.

  `Cert.KernelIdeal.Dist.run` reads the kernel's run (every output tile is the corresponding tile of `negDist`, and the 64
  tiles cover the array); `Cert.ReferenceIdeal.RefValue.ref_eq` reads the reference's last stage as `negDist`. The three
  frames are the programs' runs with the results dropped; the idealization rewrote nothing, so `preserves` is `True`.
-/
import proofs.«162378_j21835613733206_1_alg».proof.Defs
import proofs.«162378_j21835613733206_1_alg».proof.Proof.Gen.Kernel
import proofs.«162378_j21835613733206_1_alg».proof.Proof.Gen.Kernel.Skeleton
import proofs.«162378_j21835613733206_1_alg».proof.Proof.Gen.Kernel.Launch
import proofs.«162378_j21835613733206_1_alg».proof.Proof.Gen.Kernel.Points
import proofs.«162378_j21835613733206_1_alg».proof.Proof.Gen.Kernel.Frame
import proofs.«162378_j21835613733206_1_alg».proof.Proof.Gen.KernelIdeal
import proofs.«162378_j21835613733206_1_alg».proof.Proof.Gen.KernelIdeal.Skeleton
import proofs.«162378_j21835613733206_1_alg».proof.Proof.Gen.KernelIdeal.Launch
import proofs.«162378_j21835613733206_1_alg».proof.Proof.Gen.KernelIdeal.Points
import proofs.«162378_j21835613733206_1_alg».proof.Proof.Gen.KernelIdeal.Frame
import proofs.«162378_j21835613733206_1_alg».proof.Proof.Gen.ReferenceIdeal
import proofs.«162378_j21835613733206_1_alg».proof.Proof.Gen.Pre_finite_inputs
import proofs.«162378_j21835613733206_1_alg».proof.Proof.Gen.KernelIdeal.Value
import proofs.«162378_j21835613733206_1_alg».proof.Proof.Gen.ReferenceIdeal.Run
import proofs.«162378_j21835613733206_1_alg».proof.Proof.Gen.ReferenceIdeal.Read
import proofs.«162378_j21835613733206_1_alg».proof.Proof.KernelValue
import proofs.«162378_j21835613733206_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at
    `negDist` of those arguments. -/
theorem algebraic : Cert.algebraic_KernelIdeal_ReferenceIdeal := by
  intro m ρ m' ρ' _ hagree
  refine ⟨fun c => Cert.KernelIdeal.Dist.result m c, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
